-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x2 : Shape := ⟨2, ![1600000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000x2 : S_.BroadcastsInDim S1600000x2 (![] : Fin 0 → Fin S1600000x2.rank)
  reducesTo_S1600000x2_S_d0_1 : S1600000x2.ReducesTo [0, 1] S_

variable [Facts]

def fn_part1 {F : FTy → Type} [FloatOps F] (main_arg1 : IVec S1600000x2 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1600000x2 32 := broadcastInDim S1600000x2 ![] bcast_S_S1600000x2 main_c_8
  let main_v25 : IVec S1600000x2 1 := cmpi .sge main_arg1 main_v24
  let main_c_9 : IVec S_ 32 := constantI S_ 32 100000#32
  let main_v26 : IVec S1600000x2 32 := broadcastInDim S1600000x2 ![] bcast_S_S1600000x2 main_c_9
  let main_v27 : IVec S1600000x2 1 := cmpi .slt main_arg1 main_v26
  let main_v28 : IVec S1600000x2 1 := andi main_v25 main_v27
  let main_c_10 : IVec S_ 1 := constantI S_ 1 1#1
  let main_v29 : IVec S_ 1 := (fun x v => Host.reduce IntOp.andi x v reducesTo_S1600000x2_S_d0_1 h_S_) main_v28 main_c_10
  let main_v30 : IVec S_ 1 := andi main_v23 main_v29
  main_v30

def fn {F : FTy → Type} [FloatOps F] (main_arg0 : FVec F S100000x64 .f32) (main_arg1 : IVec S1600000x2 32) (main_arg2 : FVec F S128x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x64 : Shape := ⟨2, ![100000, 64]⟩
abbrev S1600000x2 : Shape := ⟨2, ![1600000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S1600000 : Shape := ⟨1, ![1600000]⟩
abbrev S_ : Shape := ⟨0, ![]⟩
abbrev S1 : Shape := ⟨1, ![1]⟩
abbrev S1x1 : Shape := ⟨2, ![1, 1]⟩
abbrev S1600000x64 : Shape := ⟨2, ![1600000, 64]⟩
abbrev S64x128 : Shape := ⟨2, ![64, 128]⟩
abbrev S1x128 : Shape := ⟨2, ![1, 128]⟩
abbrev S1x64 : Shape := ⟨2, ![1, 64]⟩
abbrev S1600000x128 : Shape := ⟨2, ![1600000, 128]⟩
abbrev S8000x64 : Shape := ⟨2, ![8000, 64]⟩
abbrev S8000x128 : Shape := ⟨2, ![8000, 128]⟩

abbrev nBuf : Space → Nat
  | .hbm => 76
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1600000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1600000x1, .i32⟩
  | .hbm, ⟨7, _⟩ => ⟨S1600000, .i32⟩
  | .hbm, ⟨8, _⟩ => ⟨S1600000x1, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x64, .f32⟩
  | .hbm, ⟨29, _⟩ => ⟨S1600000x64, .i1⟩
  | .hbm, ⟨30, _⟩ => ⟨S_, .f32⟩
  | .hbm, ⟨31, _⟩ => ⟨S1600000x64, .f32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x64, .f32⟩
  | .hbm, ⟨52, _⟩ => ⟨S1600000x64, .i1⟩
  | .hbm, ⟨53, _⟩ => ⟨S_, .f32⟩
  | .hbm, ⟨54, _⟩ => ⟨S1600000x64, .f32⟩
  | .hbm, ⟨55, _⟩ => ⟨S1600000x64, .f32⟩
  | .hbm, ⟨56, _⟩ => ⟨S64x128, .f32⟩
  | .hbm, ⟨57, _⟩ => ⟨S64x128, .bf16⟩
  | .hbm, ⟨58, _⟩ => ⟨S64x128, .f32⟩
  | .hbm, ⟨59, _⟩ => ⟨S64x128, .bf16⟩
  | .hbm, ⟨60, _⟩ => ⟨S128x64, .bf16⟩
  | .hbm, ⟨61, _⟩ => ⟨S1x128, .f32⟩
  | .hbm, ⟨62, _⟩ => ⟨S1x64, .f32⟩
  | .hbm, ⟨63, _⟩ => ⟨S1600000x128, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x128, .bf16⟩
  | .local _ .vmem, ⟨5, _⟩ => ⟨S64x128, .bf16⟩
  | .local _ .vmem, ⟨6, _⟩ => ⟨S128x64, .bf16⟩
  | .local _ .vmem, ⟨7, _⟩ => ⟨S1x128, .f32⟩
  | .local _ .vmem, ⟨8, _⟩ => ⟨S1x64, .f32⟩
  | .local _ .vmem, ⟨9, _⟩ => ⟨S8000x128, .f32⟩
  | .local _ .vmem, ⟨10, _⟩ => ⟨S8000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_0 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S128x128_S64x128_0_0 : S128x128.Slices ![0, 0] S64x128
  bitsLt_bf16_f32 : FTy.bits .bf16 < FTy.bits .f32
  slices_S128x128_S64x128_64_0 : S128x128.Slices ![64, 0] S64x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S8000x128 : S1x128.Broadcasts S8000x128
  broadcasts_S1x64_S8000x64 : S1x64.Broadcasts S8000x64
  concatenates_S8000x64_S8000x64_S8000x128_d1 : Shape.Concatenates [S8000x64, S8000x64] S8000x128 1
  inb_S8000x128_S8000x128_0_0 : ∀ a, (![0, 0] : Fin 2 → Nat) a + S8000x128.size a ≤ S8000x128.size a
  h_S8000x128 : 0 < S8000x128.numel
  slices_S1600000x128_S1600000x64_0_0 : S1600000x128.Slices ![0, 0] S1600000x64
  slices_S1600000x128_S1600000x64_0_64 : S1600000x128.Slices ![0, 64] S1600000x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S1600000x128.size a
  hwx0_7 : ∀ i : grid0.Coords, EltTy.bits .f32 = 32 ∨ (Rect.block (s := S1600000x128) S8000x128.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x2 : Shape := ⟨2, ![1600000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1600000x1, .i32⟩
  | .hbm, ⟨7, _⟩ => ⟨S1600000, .i32⟩
  | .hbm, ⟨8, _⟩ => ⟨S1600000x1, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x128, .f32⟩
  | .hbm, ⟨29, _⟩ => ⟨S1600000x128, .f32⟩
  | .hbm, ⟨30, _⟩ => ⟨S1x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S1600000x64, .f32⟩
  | .hbm, ⟨37, _⟩ => ⟨S1x64, .f32⟩
  | .hbm, ⟨38, _⟩ => ⟨S1600000x64, .f32⟩
  | .hbm, ⟨39, _⟩ => ⟨S1600000x64, .f32⟩
  | .hbm, ⟨40, _⟩ => ⟨S1600000x128, .f32⟩
  | .hbm, ⟨41, _⟩ => ⟨S1600000x128, .f32⟩
  | .hbm, ⟨42, _⟩ => ⟨S1x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S1600000x64, .f32⟩
  | .hbm, ⟨49, _⟩ => ⟨S1x64, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_cst : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.GridFacts.lean ====
/-
  Where each window's block sits on the grid.

  The grid has 200 points. The two gathered arrays and the output move one block of 8000 rows per point; the five
  small arrays are staged whole at every point. These are relations between the printed index maps and the point's
  number, decided once over all 200 points.
-/
import proofs.«429625_j36704790511854_2_alg».proof.Proof.Gen.KernelIdeal.Launch
import proofs.«429625_j36704790511854_2_alg».proof.Proof.Gen.KernelIdeal.Points
import Idealize.ShloMosaic.Lib.ValueIdx

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The printed index maps, decided over the 200 grid points: the three moving windows are at block row `t`, block
    column 0; the five small windows at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

end Cert.KernelIdeal.Packed

end
-- ==== Proof.Blocks.lean ====
/-
  What each staged block holds.

  Grid point `t` stages rows `8000 t … 8000 t + 7999` of the two gathered arrays and the whole of the five small
  arrays. A block's coordinate on an axis is always the block index times the block's extent plus the coordinate
  inside the block, so a block read off an array at an entry is the array at the corresponding entry. The reads are
  stated for an array given as a variable; a staged block is such a read of the array the region finds, whatever
  that array is known to equal.
-/
import proofs.«429625_j36704790511854_2_alg».proof.Proof.Gen.KernelIdeal.Frame
import proofs.«429625_j36704790511854_2_alg».proof.Proof.GridFacts
import Idealize.ShloMosaic.Lib.Pipeline.Value
import Idealize.ShloMosaic.PureOps.Ideal

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

/-! ## A block read off an array -/

/-- Window 0's block at point `t`, read off any array: entry `x` of the block is entry `(8000 t + x₀, x₁)` of the array. -/
theorem read_rows0 (A : S1600000x64.Idx → Elt Ideal .f32) (t : Fin cfg0.N) (x : S8000x64.Idx) (k : S1600000x64.Idx)
    (hk0 : (k 0).val = 8000 * t.val + (x 0).val) (hk1 : (k 1).val = (x 1).val) :
    ((cfg0.win 0).blk t).view.read (Elt Ideal) A x = A k := by
  obtain ⟨e0, e1, -⟩ := idx_facts t
  rw [View.read_apply]
  exact congrArg A (funext fun a => Fin.ext (by
    match a with
    | ⟨0, _⟩ => show win0_0.index t (0 : Fin 2) * 8000 + 1 * (x 0).val = (k 0).val; omega
    | ⟨1, _⟩ => show win0_0.index t (1 : Fin 2) * 64 + 1 * (x 1).val = (k 1).val; omega))

/-- Window 1's block at point `t`, read off any array: entry `x` of the block is entry `(8000 t + x₀, x₁)` of the array. -/
theorem read_rows1 (A : S1600000x64.Idx → Elt Ideal .f32) (t : Fin cfg0.N) (x : S8000x64.Idx) (k : S1600000x64.Idx)
    (hk0 : (k 0).val = 8000 * t.val + (x 0).val) (hk1 : (k 1).val = (x 1).val) :
    ((cfg0.win 1).blk t).view.read (Elt Ideal) A x = A k := by
  obtain ⟨-, -, e0, e1, -⟩ := idx_facts t
  rw [View.read_apply]
  exact congrArg A (funext fun a => Fin.ext (by
    match a with
    | ⟨0, _⟩ => show win0_1.index t (0 : Fin 2) * 8000 + 1 * (x 0).val = (k 0).val; omega
    | ⟨1, _⟩ => show win0_1.index t (1 : Fin 2) * 64 + 1 * (x 1).val = (k 1).val; omega))

/-- Window 2's block is the whole of its array at every point. -/
theorem read_whole2 (A : S64x128.Idx → Elt Ideal .bf16) (t : Fin cfg0.N) : ((cfg0.win 2).blk t).view.read (Elt Ideal) A = A := by
  obtain ⟨-, -, -, -, e0, e1, -⟩ := idx_facts t
  funext x
  rw [View.read_apply]
  exact congrArg A (funext fun a => Fin.ext (by
    match a with
    | ⟨0, _⟩ => show win0_2.index t (0 : Fin 2) * 64 + 1 * (x 0).val = (x 0).val; omega
    | ⟨1, _⟩ => show win0_2.index t (1 : Fin 2) * 128 + 1 * (x 1).val = (x 1).val; omega))

/-- Window 3's block is the whole of its array at every point. -/
theorem read_whole3 (A : S64x128.Idx → Elt Ideal .bf16) (t : Fin cfg0.N) : ((cfg0.win 3).blk t).view.read (Elt Ideal) A = A := by
  obtain ⟨-, -, -, -, -, -, e0, e1, -⟩ := idx_facts t
  funext x
  rw [View.read_apply]
  exact congrArg A (funext fun a => Fin.ext (by
    match a with
    | ⟨0, _⟩ => show win0_3.index t (0 : Fin 2) * 64 + 1 * (x 0).val = (x 0).val; omega
    | ⟨1, _⟩ => show win0_3.index t (1 : Fin 2) * 128 + 1 * (x 1).val = (x 1).val; omega))

/-- Window 4's block is the whole of its array at every point. -/
theorem read_whole4 (A : S128x64.Idx → Elt Ideal .bf16) (t : Fin cfg0.N) : ((cfg0.win 4).blk t).view.read (Elt Ideal) A = A := by
  obtain ⟨-, -, -, -, -, -, -, -, e0, e1, -⟩ := idx_facts t
  funext x
  rw [View.read_apply]
  exact congrArg A (funext fun a => Fin.ext (by
    match a with
    | ⟨0, _⟩ => show win0_4.index t (0 : Fin 2) * 128 + 1 * (x 0).val = (x 0).val; omega
    | ⟨1, _⟩ => show win0_4.index t (1 : Fin 2) * 64 + 1 * (x 1).val = (x 1).val; omega))

/-- Window 5's block is the whole of its array at every point. -/
theorem read_whole5 (A : S1x128.Idx → Elt Ideal .f32) (t : Fin cfg0.N) : ((cfg0.win 5).blk t).view.read (Elt Ideal) A = A := by
  obtain ⟨-, -, -, -, -, -, -, -, -, -, e0, e1, -⟩ := idx_facts t
  funext x
  rw [View.read_apply]
  exact congrArg A (funext fun a => Fin.ext (by
    match a with
    | ⟨0, _⟩ => show win0_5.index t (0 : Fin 2) * 1 + 1 * (x 0).val = (x 0).val; omega
    | ⟨1, _⟩ => show win0_5.index t (1 : Fin 2) * 128 + 1 * (x 1).val = (x 1).val; omega))

/-- Window 6's block is the whole of its array at every point. -/
theorem read_whole6 (A : S1x64.Idx → Elt Ideal .f32) (t : Fin cfg0.N) : ((cfg0.win 6).blk t).view.read (Elt Ideal) A = A := by
  obtain ⟨-, -, -, -, -, -, -, -, -, -, -, -, e0, e1, -⟩ := idx_facts t
  funext x
  rw [View.read_apply]
  exact congrArg A (funext fun a => Fin.ext (by
    match a with
    | ⟨0, _⟩ => show win0_6.index t (0 : Fin 2) * 1 + 1 * (x 0).val = (x 0).val; omega
    | ⟨1, _⟩ => show win0_6.index t (1 : Fin 2) * 64 + 1 * (x 1).val = (x 1).val; omega))

/-! ## The staged blocks are such reads

Window `w`'s staged block at a point is its block read off the array the region finds; if that array is known to
equal `A`, it is the block read off `A`. -/

variable (m : (ℓ : Loc nD τ sig) → Buf (Elt Ideal) ℓ)

theorem staged0 (c : Dev nD) (t : Fin cfg0.N) (A : FVec Ideal S1600000x64 .f32) (hA : (V m c main_v4 : FVec Ideal S1600000x64 .f32) = A) :
    (iblk m c 0 t : Vec Ideal S8000x64 .f32) = ((cfg0.win 0).blk t).view.read (Elt Ideal) A := by
  subst hA
  rfl

theorem staged1 (c : Dev nD) (t : Fin cfg0.N) (A : FVec Ideal S1600000x64 .f32) (hA : (V m c main_v5 : FVec Ideal S1600000x64 .f32) = A) :
    (iblk m c 1 t : Vec Ideal S8000x64 .f32) = ((cfg0.win 1).blk t).view.read (Elt Ideal) A := by
  subst hA
  rfl

theorem staged2 (c : Dev nD) (t : Fin cfg0.N) (A : FVec Ideal S64x128 .bf16) (hA : (V m c main_v7 : FVec Ideal S64x128 .bf16) = A) :
    (iblk m c 2 t : Vec Ideal S64x128 .bf16) = ((cfg0.win 2).blk t).view.read (Elt Ideal) A := by
  subst hA
  rfl

theorem staged3 (c : Dev nD) (t : Fin cfg0.N) (A : FVec Ideal S64x128 .bf16) (hA : (V m c main_v9 : FVec Ideal S64x128 .bf16) = A) :
    (iblk m c 3 t : Vec Ideal S64x128 .bf16) = ((cfg0.win 3).blk t).view.read (Elt Ideal) A := by
  subst hA
  rfl

theorem staged4 (c : Dev nD) (t : Fin cfg0.N) (A : FVec Ideal S128x64 .bf16) (hA : (V m c main_v10 : FVec Ideal S128x64 .bf16) = A) :
    (iblk m c 4 t : Vec Ideal S128x64 .bf16) = ((cfg0.win 4).blk t).view.read (Elt Ideal) A := by
  subst hA
  rfl

theorem staged5 (c : Dev nD) (t : Fin cfg0.N) (A : FVec Ideal S1x128 .f32) (hA : (V m c main_v11 : FVec Ideal S1x128 .f32) = A) :
    (iblk m c 5 t : Vec Ideal S1x128 .f32) = ((cfg0.win 5).blk t).view.read (Elt Ideal) A := by
  subst hA
  rfl

theorem staged6 (c : Dev nD) (t : Fin cfg0.N) (A : FVec Ideal S1x64 .f32) (hA : (V m c main_v12 : FVec Ideal S1x64 .f32) = A) :
    (iblk m c 6 t : Vec Ideal S1x64 .f32) = ((cfg0.win 6).blk t).view.read (Elt Ideal) A := by
  subst hA
  rfl

end Cert.KernelIdeal.Packed

end
-- ==== Proof.MsgSpec.lean ====
/-
  The message a pair of endpoint rows sends, as pure mathematics over the extended reals.

  For one edge, with endpoint rows `a` and `b` (64 numbers each), the two-layer perceptron applied to the
  concatenated row `[a, b]` (128 numbers) is
      out c = ∑ h, max (∑ k, a k · A k h + ∑ k, b k · B k h + β₁ h) 0 · W h c + β₂ c
  where `A` is the top half and `B` the bottom half of the first weight matrix: a sum over the 128 positions of
  the concatenated row is the sum over its first 64 plus the sum over its last 64 (`sum_halves`), and that is the
  only law that joins the two ways the two programs write it. It holds in any additive commutative monoid, so
  nothing here asks the numbers to be finite.
-/
import Idealize.ShloMosaic.PureOps.Ideal
import Idealize.ShloMosaic.Lib.ValueIdx

noncomputable section

namespace Cert.Msg

open Idealize.ShloMosaic Idealize.ShloMosaic.ValueIdx

/-- The zero both programs clamp against, kept as the word they both print (never evaluated). -/
abbrev zeroW : EReal := Ideal.ofBits .f32 0x00000000#32

/-- One message: the perceptron of the row `[a, b]`, column `c`, with the first layer's matrix given as its two
    halves `A` (acting on `a`) and `B` (acting on `b`). -/
def mlpRow (a b : Fin 64 → EReal) (A B : Fin 64 → Fin 128 → EReal) (β₁ : Fin 128 → EReal)
    (W : Fin 128 → Fin 64 → EReal) (β₂ : Fin 64 → EReal) (c : Fin 64) : EReal :=
  ∑ h : Fin 128, max ((∑ k : Fin 64, a k * A k h + ∑ k : Fin 64, b k * B k h) + β₁ h) zeroW * W h c + β₂ c

/-- The messages of all 1 600 000 edges at once: edge `e` sends the perceptron of `[Ha e, Hb e]`, the halves of the
    first layer being rows 0–63 and 64–127 of `W1`. -/
def msgs (Ha Hb : (⟨2, ![1600000, 64]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) : (⟨2, ![1600000, 64]⟩ : Shape).Idx → EReal :=
  fun i => mlpRow (fun k => Ha (ix2 (i 0) k)) (fun k => Hb (ix2 (i 0) k))
    (fun k h => W1 (ix2 (Fin.castAdd 64 k) h)) (fun k h => W1 (ix2 (Fin.natAdd 64 k) h))
    (fun h => b1 (ix1 h)) (fun h c => W2 (ix2 h c)) (fun c => b2 (ix1 c)) (i 1)

/-- A sum over 128 positions is the sum over the first 64 plus the sum over the last 64. -/
theorem sum_halves {M : Type*} [AddCommMonoid M] (f : Fin 128 → M) :
    ∑ k : Fin 128, f k = ∑ k : Fin 64, f (Fin.castAdd 64 k) + ∑ k : Fin 64, f (Fin.natAdd 64 k) :=
  Fin.sum_univ_add (a := 64) (b := 64) f

end Cert.Msg

end
-- ==== Proof.KerPay.lean ====
/-
  What the kernel body stores, entry by entry: row `r` of a block of 8000 edges holds, in its first 64 columns, the
  perceptron of `[x0 r, x1 r]` and, in its last 64, the perceptron of `[x1 r, x0 r]`.

  The body computes each message as two 64-long contractions (the row's two halves against the two halves of the
  first matrix) added together, plus the first bias row, clamped below by zero, then one 128-long contraction
  against the second matrix plus the second bias row; the two messages are laid side by side along the columns.
  Read at one entry, every step is pointwise except the contractions (each a finite sum over its one contraction
  coordinate), the row broadcasts (the one row, whatever the output row), the identity shape casts and the final
  concatenation (columns below 64 fall in the first piece, the others in the second, 64 less). Narrowing to the
  shorter format is the identity on the extended reals, and the zero clamped against stays the word it is printed as.
-/
import proofs.«429625_j36704790511854_2_alg».proof.Proof.Gen.KernelIdeal.Skeleton
import proofs.«429625_j36704790511854_2_alg».proof.Proof.MsgSpec
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx

/-! ## The two contractions read at an entry -/

/-- In the 64-long contraction, the left operand's row coordinate is the output's row. -/
theorem lhs_contract64_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
/-- In the 64-long contraction, the left operand's column coordinate is the contraction index. -/
theorem lhs_contract64_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
/-- In the 64-long contraction, the right operand's row coordinate is the contraction index. -/
theorem rhs_contract64_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
/-- In the 64-long contraction, the right operand's column coordinate is the output's column. -/
theorem rhs_contract64_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- A rows-by-64 times 64-by-128 product accumulated into the zero splat, read at `(p, q)`, is the 64-term sum
    `∑ k, l (p, k) · w (k, q)`: the accumulator's zero drops out and the one-axis contraction index is its coordinate. -/
theorem contract64_apply (l : FVec Ideal S8000x64 .bf16) (w : FVec Ideal S64x128 .bf16) (p : Fin 8000) (q : Fin 128) :
    matmul dot_S8000x64_S64x128_S8000x128_1_0_0_1_n_n none l w (constant (F := Ideal) S8000x128 .f32 0x00000000#32) (ix2 p q)
      = ∑ k : Fin 64, l (ix2 p k) * w (ix2 k q) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p q) ((contrEquiv1 dot_S8000x64_S64x128_S8000x128_1_0_0_1_n_n 64 rfl rfl).symm k) = ix2 p k := funext fun a => Fin.ext (by
    match a with
    | ⟨0, _⟩ => exact lhs_contract64_0 _ _
    | ⟨1, _⟩ => exact (lhs_contract64_1 _ _).trans hk)
  have er : dot_S8000x64_S64x128_S8000x128_1_0_0_1_n_n.rhsIdx (ix2 p q) ((contrEquiv1 dot_S8000x64_S64x128_S8000x128_1_0_0_1_n_n 64 rfl rfl).symm k) = ix2 k q := funext fun a => Fin.ext (by
    match a with
    | ⟨0, _⟩ => exact (rhs_contract64_0 _ _).trans hk
    | ⟨1, _⟩ => exact rhs_contract64_1 _ _)
  rw [el, er]

/-- In the 128-long contraction, the left operand's row coordinate is the output's row. -/
theorem lhs_contract128_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
/-- In the 128-long contraction, the left operand's column coordinate is the contraction index. -/
theorem lhs_contract128_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
/-- In the 128-long contraction, the right operand's row coordinate is the contraction index. -/
theorem rhs_contract128_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
/-- In the 128-long contraction, the right operand's column coordinate is the output's column. -/
theorem rhs_contract128_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- A rows-by-128 times 128-by-64 product accumulated into the zero splat, read at `(p, q)`, is the 128-term sum
    `∑ k, l (p, k) · w (k, q)`. -/
theorem contract128_apply (l : FVec Ideal S8000x128 .bf16) (w : FVec Ideal S128x64 .bf16) (p : Fin 8000) (q : Fin 64) :
    matmul dot_S8000x128_S128x64_S8000x64_1_0_0_1_n_n none l w (constant (F := Ideal) S8000x64 .f32 0x00000000#32) (ix2 p q)
      = ∑ k : Fin 128, l (ix2 p k) * w (ix2 k q) := by
  simp only [matmul]
  rw [Ideal.matmul_constant_zero_apply, ← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p q) ((contrEquiv1 dot_S8000x128_S128x64_S8000x64_1_0_0_1_n_n 128 rfl rfl).symm k) = ix2 p k := funext fun a => Fin.ext (by
    match a with
    | ⟨0, _⟩ => exact lhs_contract128_0 _ _
    | ⟨1, _⟩ => exact (lhs_contract128_1 _ _).trans hk)
  have er : dot_S8000x128_S128x64_S8000x64_1_0_0_1_n_n.rhsIdx (ix2 p q) ((contrEquiv1 dot_S8000x128_S128x64_S8000x64_1_0_0_1_n_n 128 rfl rfl).symm k) = ix2 k q := funext fun a => Fin.ext (by
    match a with
    | ⟨0, _⟩ => exact (rhs_contract128_0 _ _).trans hk
    | ⟨1, _⟩ => exact rhs_contract128_1 _ _)
  rw [el, er]

/-! ## The layers read at an entry -/

/-- The hidden layer at row `p`, unit `h`: the two half-contractions, the bias row, clamped below by the zero word. -/
theorem hidden_apply (u v : FVec Ideal S8000x64 .bf16) (A B : FVec Ideal S64x128 .bf16) (β : FVec Ideal S1x128 .f32)
    (p : Fin 8000) (h : Fin 128) :
    maximumf (addf (addf (matmul dot_S8000x64_S64x128_S8000x128_1_0_0_1_n_n none u A (constant (F := Ideal) S8000x128 .f32 0x00000000#32))
        (matmul dot_S8000x64_S64x128_S8000x128_1_0_0_1_n_n none v B (constant (F := Ideal) S8000x128 .f32 0x00000000#32)))
        (broadcastTo S8000x128 β broadcasts_S1x128_S8000x128))
      (broadcast S8000x128 (Scalar.ofBits (F := Ideal) .f32 0x00000000#32)) (ix2 p h)
      = max ((∑ k : Fin 64, u (ix2 p k) * A (ix2 k h) + ∑ k : Fin 64, v (ix2 p k) * B (ix2 k h)) + β (ix2 (0 : Fin 1) h))
          Cert.Msg.zeroW := by
  rw [maximumf_apply, addf_apply, addf_apply, contract64_apply, contract64_apply, broadcastTo_1b_ab_apply, broadcast_apply]
  rfl

/-- Message one at row `p`, column `c`: the perceptron of `[x0 p, x1 p]`. -/
theorem first_message_apply (x0 x1 : Vec Ideal S8000x64 .f32) (x2 x3 : Vec Ideal S64x128 .bf16) (x4 : Vec Ideal S128x64 .bf16)
    (x5 : Vec Ideal S1x128 .f32) (x6 : Vec Ideal S1x64 .f32) (p : Fin 8000) (c : Fin 64) :
    k0_pay9 (F := Ideal) x0 x1 x2 x3 x4 x5 x6 (ix2 p c)
      = Cert.Msg.mlpRow (fun k => x0 (ix2 p k)) (fun k => x1 (ix2 p k)) (fun k h => x2 (ix2 k h)) (fun k h => x3 (ix2 k h))
          (fun h => x5 (ix2 (0 : Fin 1) h)) (fun h c => x4 (ix2 h c)) (fun c => x6 (ix2 (0 : Fin 1) c)) c := by
  simp only [k0_pay9, k0_pay2, k0_pay3, k0_pay4, k0_pay5, k0_pay6, k0_pay7, k0_pay8, shapeCast_self]
  rw [addf_apply, contract128_apply, broadcastTo_1b_ab_apply]
  unfold Cert.Msg.mlpRow
  refine congrArg (· + x6 (ix2 (0 : Fin 1) c)) (Finset.sum_congr rfl fun h _ => ?_)
  rw [truncf_apply, hidden_apply]
  rfl

/-- Message two before its bias, at row `p`, column `c`: the second layer's contraction of the hidden layer of
    `[x1 p, x0 p]`. -/
theorem second_message_apply (x0 x1 : Vec Ideal S8000x64 .f32) (x2 x3 : Vec Ideal S64x128 .bf16) (x4 : Vec Ideal S128x64 .bf16)
    (x5 : Vec Ideal S1x128 .f32) (p : Fin 8000) (c : Fin 64) :
    k0_pay10 (F := Ideal) x0 x1 x2 x3 x4 x5 (ix2 p c)
      = ∑ h : Fin 128, max ((∑ k : Fin 64, x1 (ix2 p k) * x2 (ix2 k h) + ∑ k : Fin 64, x0 (ix2 p k) * x3 (ix2 k h))
          + x5 (ix2 (0 : Fin 1) h)) Cert.Msg.zeroW * x4 (ix2 h c) := by
  simp only [k0_pay10, k0_pay2, k0_pay3, k0_pay4, k0_pay5, k0_pay6, k0_pay7, shapeCast_self]
  rw [contract128_apply]
  refine Finset.sum_congr rfl fun h _ => ?_
  rw [truncf_apply, hidden_apply]
  rfl

/-- The second layer's bias row, broadcast over the rows. -/
theorem bias_row_apply (x6 : Vec Ideal S1x64 .f32) (p : Fin 8000) (c : Fin 64) :
    k0_pay11 (F := Ideal) x6 (ix2 p c) = x6 (ix2 (0 : Fin 1) c) := by
  simp only [k0_pay11, k0_pay8, shapeCast_self]
  exact broadcastTo_1b_ab_apply _ _ p c

/-! ## The two messages side by side -/

/-- The stored block at row `r`, column `c`. -/
theorem packed_apply (x0 x1 : Vec Ideal S8000x64 .f32) (x2 x3 : Vec Ideal S64x128 .bf16) (x4 : Vec Ideal S128x64 .bf16)
    (x5 : Vec Ideal S1x128 .f32) (x6 : Vec Ideal S1x64 .f32) (r : Fin 8000) (c : Fin 128) :
    k0_pay1 (F := Ideal) (k0_pay9 x0 x1 x2 x3 x4 x5 x6) (k0_pay10 x0 x1 x2 x3 x4 x5) (k0_pay11 x6) (ix2 r c)
      = if h : c.val < 64 then
          Cert.Msg.mlpRow (fun k => x0 (ix2 r k)) (fun k => x1 (ix2 r k)) (fun k h => x2 (ix2 k h)) (fun k h => x3 (ix2 k h))
            (fun h => x5 (ix2 (0 : Fin 1) h)) (fun h c => x4 (ix2 h c)) (fun c => x6 (ix2 (0 : Fin 1) c)) ⟨c.val, h⟩
        else
          Cert.Msg.mlpRow (fun k => x1 (ix2 r k)) (fun k => x0 (ix2 r k)) (fun k h => x2 (ix2 k h)) (fun k h => x3 (ix2 k h))
            (fun h => x5 (ix2 (0 : Fin 1) h)) (fun h c => x4 (ix2 h c)) (fun c => x6 (ix2 (0 : Fin 1) c)) ⟨c.val - 64, by omega⟩ := by
  generalize hm1 : k0_pay9 (F := Ideal) x0 x1 x2 x3 x4 x5 x6 = m1
  generalize hm2 : k0_pay10 (F := Ideal) x0 x1 x2 x3 x4 x5 = m2
  generalize hb : k0_pay11 (F := Ideal) x6 = b2
  simp only [k0_pay1]
  by_cases h : c.val < 64
  · rw [dif_pos h]
    refine (concatenate_pair_apply_left (1 : Fin S8000x128.rank) m1 (addf m2 b2)
      concatenates_S8000x64_S8000x64_S8000x128_d1 (ix2 r c) rfl (ix2 r (⟨c.val, h⟩ : Fin 64)) ?_).trans ?_
    · intro b
      match b with
      | ⟨0, _⟩ => rfl
      | ⟨1, _⟩ => rfl
    · rw [← hm1]
      exact first_message_apply x0 x1 x2 x3 x4 x5 x6 r ⟨c.val, h⟩
  · rw [dif_neg h]
    have hc : c.val - 64 < 64 := by omega
    refine (concatenate_pair_apply_right (1 : Fin S8000x128.rank) m1 (addf m2 b2)
      concatenates_S8000x64_S8000x64_S8000x128_d1 (ix2 r c) rfl rfl (ix2 r (⟨c.val - 64, hc⟩ : Fin 64)) ?_ ?_).trans ?_
    · intro b hb'
      match b with
      | ⟨0, _⟩ => rfl
      | ⟨1, _⟩ => exact absurd rfl hb'
    · show c.val - 64 + 64 = c.val
      omega
    · rw [addf_apply, ← hm2, ← hb, second_message_apply, bias_row_apply]
      rfl

end Cert.KernelIdeal.KerValue

end
-- ==== Proof.PackedSpec.lean ====
/-
  The packed message array, as one function of the staged arrays, and one entry of one block of it.

  Row `e` of the packed array holds the perceptron of `[Ha e, Hb e]` in its columns 0–63 and the perceptron of
  `[Hb e, Ha e]` in its columns 64–127. If the two 8000-row input blocks of a grid point are rows `8000 b …` of the two
  gathered arrays and the five small blocks are the small arrays themselves, then entry `(r, q)` of what the body
  stores is entry `(8000 b + r, q)` of the packed array.
-/
import proofs.«429625_j36704790511854_2_alg».proof.Proof.KerPay
import Idealize.ShloMosaic.PureOps.Ideal

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

/-- The packed array: row `e` holds the message towards the first endpoint in its columns 0–63 and the message
    towards the second endpoint in its columns 64–127. `A`, `B` are the halves of the first matrix, `W` the second
    matrix, `β₁`, `β₂` the biases as one-row matrices. -/
def packed (Ha Hb : FVec Ideal S1600000x64 .f32) (A B : Vec Ideal S64x128 .bf16) (W : Vec Ideal S128x64 .bf16)
    (β₁ : Vec Ideal S1x128 .f32) (β₂ : Vec Ideal S1x64 .f32) : FVec Ideal S1600000x128 .f32 :=
  fun i => if h : (i 1).val < 64 then
      Cert.Msg.mlpRow (fun k => Ha (ix2 (i 0) k)) (fun k => Hb (ix2 (i 0) k)) (fun k h => A (ix2 k h)) (fun k h => B (ix2 k h))
        (fun h => β₁ (ix2 (0 : Fin 1) h)) (fun h c => W (ix2 h c)) (fun c => β₂ (ix2 (0 : Fin 1) c)) ⟨(i 1).val, h⟩
    else
      Cert.Msg.mlpRow (fun k => Hb (ix2 (i 0) k)) (fun k => Ha (ix2 (i 0) k)) (fun k h => A (ix2 k h)) (fun k h => B (ix2 k h))
        (fun h => β₁ (ix2 (0 : Fin 1) h)) (fun h c => W (ix2 h c)) (fun c => β₂ (ix2 (0 : Fin 1) c))
        ⟨(i 1).val - 64, by have := idx2_lt1 i; omega⟩

/-- One entry of one block: if the two 8000-row input blocks are rows `8000 b …` of `Ha`, `Hb` and the five small
    blocks are the small arrays, the body's entry `j` is the packed array's entry `i = (8000 b + j₀, j₁)`. -/
theorem entry_eq (x0 x1 : Vec Ideal S8000x64 .f32) (x2 x3 : Vec Ideal S64x128 .bf16) (x4 : Vec Ideal S128x64 .bf16)
    (x5 : Vec Ideal S1x128 .f32) (x6 : Vec Ideal S1x64 .f32)
    (Ha Hb : FVec Ideal S1600000x64 .f32) (A B : Vec Ideal S64x128 .bf16) (W : Vec Ideal S128x64 .bf16)
    (β₁ : Vec Ideal S1x128 .f32) (β₂ : Vec Ideal S1x64 .f32) (b : Nat)
    (h0 : ∀ (x : S8000x64.Idx) (k : S1600000x64.Idx), (k 0).val = 8000 * b + (x 0).val → (k 1).val = (x 1).val → x0 x = Ha k)
    (h1 : ∀ (x : S8000x64.Idx) (k : S1600000x64.Idx), (k 0).val = 8000 * b + (x 0).val → (k 1).val = (x 1).val → x1 x = Hb k)
    (h2 : x2 = A) (h3 : x3 = B) (h4 : x4 = W) (h5 : x5 = β₁) (h6 : x6 = β₂)
    (j : S8000x128.Idx) (i : S1600000x128.Idx) (hi0 : (i 0).val = 8000 * b + (j 0).val) (hi1 : (i 1).val = (j 1).val) :
    k0_pay1 (F := Ideal) (k0_pay9 x0 x1 x2 x3 x4 x5 x6) (k0_pay10 x0 x1 x2 x3 x4 x5) (k0_pay11 x6) j
      = packed Ha Hb A B W β₁ β₂ i := by
  subst h2 h3 h4 h5 h6
  obtain ⟨r, q, rfl⟩ : ∃ (r : Fin 8000) (q : Fin 128), j = ix2 r q := ⟨j 0, j 1, eq_ix2 j⟩
  obtain ⟨e, q', rfl⟩ : ∃ (e : Fin 1600000) (q' : Fin 128), i = ix2 e q' := ⟨i 0, i 1, eq_ix2 i⟩
  obtain rfl : q' = q := Fin.ext hi1
  have ha : (fun k : Fin 64 => x0 (ix2 r k)) = fun k => Ha (ix2 e k) := funext fun k => h0 _ _ hi0 rfl
  have hb : (fun k : Fin 64 => x1 (ix2 r k)) = fun k => Hb (ix2 e k) := funext fun k => h1 _ _ hi0 rfl
  rw [KerValue.packed_apply]
  unfold packed
  by_cases hlt : q'.val < 64
  · rw [dif_pos hlt, dif_pos (show ((ix2 e q' : S1600000x128.Idx) 1).val < 64 from hlt), ha, hb]
  · rw [dif_neg hlt, dif_neg (show ¬ ((ix2 e q' : S1600000x128.Idx) 1).val < 64 from hlt), ha, hb]

end Cert.KernelIdeal.Packed

end
-- ==== Proof.Flushed.lean ====
/-
  What a grid point writes back is its block of the packed array.

  Point `t` writes back rows `8000 t … 8000 t + 7999` of the output. The body's stored block is one covering store of
  one payload, computed from the point's seven input blocks; entry `(r, q)` of it is entry `(8000 t + r, q)` of the
  packed array of the seven arrays the region finds, whatever those arrays are known to equal.
-/
import proofs.«429625_j36704790511854_2_alg».proof.Proof.Blocks
import proofs.«429625_j36704790511854_2_alg».proof.Proof.PackedSpec

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point `t` writes back is block `t` of the packed array of the arrays the region finds. -/
theorem flushed_eq (c : Dev nD) (t : Fin cfg0.N) (A0 A1 : FVec Ideal S1600000x64 .f32) (A2 A3 : FVec Ideal S64x128 .bf16) (A4 : FVec Ideal S128x64 .bf16)
    (A5 : FVec Ideal S1x128 .f32) (A6 : FVec Ideal S1x64 .f32)
    (h0 : (V m c main_v4 : FVec Ideal S1600000x64 .f32) = A0) (h1 : (V m c main_v5 : FVec Ideal S1600000x64 .f32) = A1)
    (h2 : (V m c main_v7 : FVec Ideal S64x128 .bf16) = A2) (h3 : (V m c main_v9 : FVec Ideal S64x128 .bf16) = A3)
    (h4 : (V m c main_v10 : FVec Ideal S128x64 .bf16) = A4) (h5 : (V m c main_v11 : FVec Ideal S1x128 .f32) = A5)
    (h6 : (V m c main_v12 : FVec Ideal S1x64 .f32) = A6) :
    (dats m 0 c).flushed 7 t = ((cfg0.win 7).blk t).view.read (Elt Ideal) (packed A0 A1 A2 A3 A4 A5 A6) := by
  show (cfg0.win 7).cut (grid0.coords t) ((dats m 0 c).after 7 t) = _
  rw [after0_7]
  unfold out0_7
  rw [View.canon_unit_zero hz]
  simp only [View.ld_unit_zero (S := S8000x64) hz, View.ld_unit_zero (S := S64x128) hz, View.ld_unit_zero (S := S128x64) hz,
    View.ld_unit_zero (S := S1x128) hz, View.ld_unit_zero (S := S1x64) hz]
  have e7 := (idx_facts t).2.2.2.2.2.2.2.2.2.2.2.2.2.2
  funext j
  show k0_pay1 (F := Ideal) (k0_pay9 (iblk m c 0 t) (iblk m c 1 t) (iblk m c 2 t) (iblk m c 3 t) (iblk m c 4 t) (iblk m c 5 t) (iblk m c 6 t))
      (k0_pay10 (iblk m c 0 t) (iblk m c 1 t) (iblk m c 2 t) (iblk m c 3 t) (iblk m c 4 t) (iblk m c 5 t)) (k0_pay11 (iblk m c 6 t)) j
    = packed A0 A1 A2 A3 A4 A5 A6 (((cfg0.win 7).blk t).view.emb j)
  exact entry_eq (iblk m c 0 t) (iblk m c 1 t) (iblk m c 2 t) (iblk m c 3 t) (iblk m c 4 t) (iblk m c 5 t) (iblk m c 6 t)
    A0 A1 A2 A3 A4 A5 A6 t.val
    (fun x k hk0 hk1 => (congrFun (staged0 m c t A0 h0) x).trans (read_rows0 A0 t x k hk0 hk1))
    (fun x k hk0 hk1 => (congrFun (staged1 m c t A1 h1) x).trans (read_rows1 A1 t x k hk0 hk1))
    ((staged2 m c t A2 h2).trans (read_whole2 A2 t)) ((staged3 m c t A3 h3).trans (read_whole3 A3 t))
    ((staged4 m c t A4 h4).trans (read_whole4 A4 t)) ((staged5 m c t A5 h5).trans (read_whole5 A5 t))
    ((staged6 m c t A6 h6).trans (read_whole6 A6 t)) j (((cfg0.win 7).blk t).view.emb j)
    (by show win0_7.index t (0 : Fin 2) * 8000 + 1 * (j 0).val = 8000 * t.val + (j 0).val; omega)
    (by show win0_7.index t (1 : Fin 2) * 128 + 1 * (j 1).val = (j 1).val; omega)

end Cert.KernelIdeal.Packed

end
-- ==== Proof.Cover.lean ====
/-
  The blocks cover the output, so after the last point the output array is the packed array.

  Row `e` of the output lies in the block of point `e / 8000`, and every column lies in every block, so each entry is
  written back by some point; what each point writes back is its block of the packed array.
-/
import proofs.«429625_j36704790511854_2_alg».proof.Proof.Flushed

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An index of the array is in point `t`'s block iff each coordinate is in the block's range on its axis. -/
theorem mem_blk (t : Fin cfg0.N) (i : S1600000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v13).slice (win0_7.rect t)).set ↔ _
  rw [View.set_slice_whole, Rect.mem_set_unit]
  exact Iff.rfl

/-- Row `e` lies in the block of point `e / 8000`. -/
theorem cover (i : S1600000x128.Idx) :
    ∃ t : Fin cfg0.N, (cfg0.win 7).flush t = true ∧ i ∈ ((cfg0.win 7).blk t).view.set := by
  have hi0 : (i 0).val < 1600000 := idx2_lt0 i
  have hi1 : (i 1).val < 128 := idx2_lt1 i
  have hN : cfg0.N = 200 := N_0
  have ht : (i 0).val / 8000 < cfg0.N := by rw [hN]; omega
  refine ⟨⟨(i 0).val / 8000, ht⟩, flush0_7 _, ?_⟩
  have e7 := (idx_facts ⟨(i 0).val / 8000, ht⟩).2.2.2.2.2.2.2.2.2.2.2.2.2.2
  rw [mem_blk]
  intro a
  match a with
  | ⟨0, _⟩ =>
    show win0_7.index ⟨(i 0).val / 8000, ht⟩ (0 : Fin 2) * 8000 ≤ (i 0).val
      ∧ (i 0).val < win0_7.index ⟨(i 0).val / 8000, ht⟩ (0 : Fin 2) * 8000 + 8000
    rw [e7.1]
    show (i 0).val / 8000 * 8000 ≤ (i 0).val ∧ (i 0).val < (i 0).val / 8000 * 8000 + 8000
    omega
  | ⟨1, _⟩ =>
    show win0_7.index ⟨(i 0).val / 8000, ht⟩ (1 : Fin 2) * 128 ≤ (i 1).val
      ∧ (i 1).val < win0_7.index ⟨(i 0).val / 8000, ht⟩ (1 : Fin 2) * 128 + 128
    rw [e7.2]
    omega

/-- After the last point the output array is the packed array of the seven arrays the region finds. -/
theorem final (c : Dev nD) (A0 A1 : FVec Ideal S1600000x64 .f32) (A2 A3 : FVec Ideal S64x128 .bf16) (A4 : FVec Ideal S128x64 .bf16)
    (A5 : FVec Ideal S1x128 .f32) (A6 : FVec Ideal S1x64 .f32)
    (h0 : (V m c main_v4 : FVec Ideal S1600000x64 .f32) = A0) (h1 : (V m c main_v5 : FVec Ideal S1600000x64 .f32) = A1)
    (h2 : (V m c main_v7 : FVec Ideal S64x128 .bf16) = A2) (h3 : (V m c main_v9 : FVec Ideal S64x128 .bf16) = A3)
    (h4 : (V m c main_v10 : FVec Ideal S128x64 .bf16) = A4) (h5 : (V m c main_v11 : FVec Ideal S1x128 .f32) = A5)
    (h6 : (V m c main_v12 : FVec Ideal S1x64 .f32) = A6) :
    (dats m 0 c).arrAt 7 cfg0.N = packed A0 A1 A2 A3 A4 A5 A6 :=
  (dats m 0 c).arrAt_eq_of_cover 7 (packed A0 A1 A2 A3 A4 A5 A6)
    (fun t _ => flushed_eq m c t A0 A1 A2 A3 A4 A5 A6 h0 h1 h2 h3 h4 h5 h6) cover

end Cert.KernelIdeal.Packed

end
-- ==== Proof.KerMsg.lean ====
/-
  The two column halves of the packed array are the specification's two message arrays.

  Columns 0–63 of row `e` of the packed array hold the perceptron of `[Ha e, Hb e]`, columns 64–127 that of
  `[Hb e, Ha e]`. The small arrays the region is given are the arguments re-laid: the two halves of the first matrix
  are its rows 0–63 and 64–127, the second matrix is itself, each bias is its vector as a one-row matrix, and the
  narrowing to the shorter float format is the identity on the extended reals. So cutting the packed array at column
  64 gives the message towards the first endpoint and the message towards the second endpoint, as the specification
  states them over the argument arrays.
-/
import proofs.«429625_j36704790511854_2_alg».proof.Proof.PackedSpec
import Idealize.ShloMosaic.Lib.Pipeline.Value

set_option maxRecDepth 16384

noncomputable section

namespace Cert.KernelIdeal.Halves

open Cert.KernelIdeal Cert.KernelIdeal.Gen Idealize.ShloMosaic Idealize.ShloMosaic.TcCoe Idealize.ShloMosaic.ValueIdx

/-! ## The small arrays, read at an entry -/

/-- Entry `(k, h)` of the narrowed top half of the first matrix is entry `(k, h)` of the matrix. -/
theorem top_entry (W1 : FVec Ideal S128x128 .f32) (k : Fin 64) (h : Fin 128) :
    (truncf .bf16 (extractStridedSlice S64x128 ![0, 0] W1 slices_S128x128_S64x128_0_0) bitsLt_bf16_f32 : FVec Ideal S64x128 .bf16) (ix2 k h)
      = W1 (ix2 (Fin.castAdd 64 k) h) := by
  rw [truncf_apply]
  exact extractStridedSlice_apply _ W1 slices_S128x128_S64x128_0_0 (ix2 k h) (ix2 (Fin.castAdd 64 k) h) (fun a => match a with
    | ⟨0, _⟩ => by show k.val = 0 + k.val; omega
    | ⟨1, _⟩ => by show h.val = 0 + h.val; omega)

/-- Entry `(k, h)` of the narrowed bottom half of the first matrix is entry `(64 + k, h)` of the matrix. -/
theorem bottom_entry (W1 : FVec Ideal S128x128 .f32) (k : Fin 64) (h : Fin 128) :
    (truncf .bf16 (extractStridedSlice S64x128 ![64, 0] W1 slices_S128x128_S64x128_64_0) bitsLt_bf16_f32 : FVec Ideal S64x128 .bf16) (ix2 k h)
      = W1 (ix2 (Fin.natAdd 64 k) h) := by
  rw [truncf_apply]
  exact extractStridedSlice_apply _ W1 slices_S128x128_S64x128_64_0 (ix2 k h) (ix2 (Fin.natAdd 64 k) h) (fun a => match a with
    | ⟨0, _⟩ => by show 64 + k.val = 64 + k.val; rfl
    | ⟨1, _⟩ => by show h.val = 0 + h.val; omega)

/-- The narrowed second matrix is the second matrix, entry by entry. -/
theorem second_entry (W2 : FVec Ideal S128x64 .f32) (h : Fin 128) (c : Fin 64) :
    (truncf .bf16 W2 bitsLt_bf16_f32 : FVec Ideal S128x64 .bf16) (ix2 h c) = W2 (ix2 h c) := rfl

/-- Column `h` of the first bias laid out as one row is entry `h` of the bias. -/
theorem bias1_entry (b1 : FVec Ideal S128 .f32) (h : Fin 128) :
    shapeCast S1x128 b1 shapeCasts_S128_S1x128 (ix2 (0 : Fin 1) h) = b1 (ix1 h) :=
  shapeCast_apply b1 shapeCasts_S128_S1x128 (ix2 (0 : Fin 1) h) (ix1 h) (by
    rw [Shape.rowMajor_val_one, Shape.rowMajor_val_two]
    show h.val = 0 * 128 + h.val
    omega)

/-- Column `c` of the second bias laid out as one row is entry `c` of the bias. -/
theorem bias2_entry (b2 : FVec Ideal S64 .f32) (c : Fin 64) :
    shapeCast S1x64 b2 shapeCasts_S64_S1x64 (ix2 (0 : Fin 1) c) = b2 (ix1 c) :=
  shapeCast_apply b2 shapeCasts_S64_S1x64 (ix2 (0 : Fin 1) c) (ix1 c) (by
    rw [Shape.rowMajor_val_one, Shape.rowMajor_val_two]
    show c.val = 0 * 64 + c.val
    omega)

/-! ## The two halves -/

/-- The packed array of two gathered arrays and the re-laid arguments. -/
abbrev packedOf (Ha Hb : FVec Ideal S1600000x64 .f32) (W1 : FVec Ideal S128x128 .f32) (b1 : FVec Ideal S128 .f32)
    (W2 : FVec Ideal S128x64 .f32) (b2 : FVec Ideal S64 .f32) : FVec Ideal S1600000x128 .f32 :=
  Packed.packed Ha Hb (truncf .bf16 (extractStridedSlice S64x128 ![0, 0] W1 slices_S128x128_S64x128_0_0) bitsLt_bf16_f32)
    (truncf .bf16 (extractStridedSlice S64x128 ![64, 0] W1 slices_S128x128_S64x128_64_0) bitsLt_bf16_f32)
    (truncf .bf16 W2 bitsLt_bf16_f32) (shapeCast S1x128 b1 shapeCasts_S128_S1x128) (shapeCast S1x64 b2 shapeCasts_S64_S1x64)

/-- Columns 0–63 of the packed array: the messages towards the first endpoints. -/
theorem left_half (Ha Hb : FVec Ideal S1600000x64 .f32) (W1 : FVec Ideal S128x128 .f32) (b1 : FVec Ideal S128 .f32)
    (W2 : FVec Ideal S128x64 .f32) (b2 : FVec Ideal S64 .f32) :
    extractStridedSlice S1600000x64 ![0, 0] (packedOf Ha Hb W1 b1 W2 b2) slices_S1600000x128_S1600000x64_0_0
      = Cert.Msg.msgs Ha Hb W1 b1 W2 b2 := by
  funext i
  obtain ⟨e, c, rfl⟩ : ∃ (e : Fin 1600000) (c : Fin 64), i = ix2 e c := ⟨i 0, i 1, eq_ix2 i⟩
  rw [extractStridedSlice_apply _ _ slices_S1600000x128_S1600000x64_0_0 (ix2 e c) (ix2 e (Fin.castAdd 64 c)) (fun a => match a with
    | ⟨0, _⟩ => by show e.val = 0 + e.val; omega
    | ⟨1, _⟩ => by show c.val = 0 + c.val; omega)]
  unfold packedOf Packed.packed Cert.Msg.msgs
  beta_reduce
  rw [dif_pos (show ((ix2 e (Fin.castAdd 64 c) : S1600000x128.Idx) 1).val < 64 from c.isLt)]
  simp only [top_entry, bottom_entry, second_entry, bias1_entry, bias2_entry]
  rfl

/-- Columns 64–127 of the packed array: the messages towards the second endpoints. -/
theorem right_half (Ha Hb : FVec Ideal S1600000x64 .f32) (W1 : FVec Ideal S128x128 .f32) (b1 : FVec Ideal S128 .f32)
    (W2 : FVec Ideal S128x64 .f32) (b2 : FVec Ideal S64 .f32) :
    extractStridedSlice S1600000x64 ![0, 64] (packedOf Ha Hb W1 b1 W2 b2) slices_S1600000x128_S1600000x64_0_64
      = Cert.Msg.msgs Hb Ha W1 b1 W2 b2 := by
  funext i
  obtain ⟨e, c, rfl⟩ : ∃ (e : Fin 1600000) (c : Fin 64), i = ix2 e c := ⟨i 0, i 1, eq_ix2 i⟩
  rw [extractStridedSlice_apply _ _ slices_S1600000x128_S1600000x64_0_64 (ix2 e c) (ix2 e (Fin.natAdd 64 c)) (fun a => match a with
    | ⟨0, _⟩ => by show e.val = 0 + e.val; omega
    | ⟨1, _⟩ => by show 64 + c.val = 64 + c.val; rfl)]
  unfold packedOf Packed.packed Cert.Msg.msgs
  beta_reduce
  rw [dif_neg (show ¬ ((ix2 e (Fin.natAdd 64 c) : S1600000x128.Idx) 1).val < 64 from by show ¬ 64 + c.val < 64; omega)]
  simp only [top_entry, bottom_entry, second_entry, bias1_entry, bias2_entry]
  exact congrArg (Cert.Msg.mlpRow _ _ _ _ _ _ _) (Fin.ext (by show 64 + c.val - 64 = c.val; omega))

end Cert.KernelIdeal.Halves

end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.TakeRows.lean ====
/-
  The rows the kernel's side gathers, when every index is a node number.

  The kernel gathers endpoint rows by `take`: an index `i` is first normalised (a negative `i` becomes `i + 100000`),
  the row `nodes[clamp i]` is gathered, and the result is KEPT where `0 ≤ i ≤ 99999` and replaced by a fill word
  elsewhere. For an index with `0 ≤ i < 100000` the normalisation leaves `i` alone, both comparisons of the in-bounds
  test hold, the `and`-reduction over the one-entry index vector is 1, and the select keeps the gathered row: the
  taken array is the plain gather at the normalised indices — the very term the reference gathers with.
-/
import proofs.«429625_j36704790511854_2_alg».proof.Proof.Gen.KernelIdeal
import proofs.«429625_j36704790511854_2_alg».proof.Proof.LibAllOnes
import Idealize.ShloMosaic.Lib.Pipeline.Value

noncomputable section

namespace Cert.KernelIdeal.TakeValue

open Cert.KernelIdeal Cert.KernelIdeal.Gen Idealize.ShloMosaic Idealize.ShloMosaic.ValueIdx

variable {F : FTy → Type} [FloatOps F]

/-- Column 0 of the edge table: the first endpoints. -/
def col0 (E : IVec S1600000x2 32) : IVec S1600000 32 :=
  shapeCast S1600000 (extractStridedSlice S1600000x1 ![0, 0] E slices_S1600000x2_S1600000x1_0_0) shapeCasts_S1600000x1_S1600000

/-- Column 1 of the edge table: the second endpoints. -/
def col1 (E : IVec S1600000x2 32) : IVec S1600000 32 :=
  shapeCast S1600000 (extractStridedSlice S1600000x1 ![0, 1] E slices_S1600000x2_S1600000x1_0_1) shapeCasts_S1600000x1_S1600000

/-- Every entry of a column is an entry of the table. -/
theorem col0_mem (E : IVec S1600000x2 32) (e : S1600000.Idx) : ∃ k, col0 E e = E k := by
  unfold col0 shapeCast extractStridedSlice
  exact ⟨_, rfl⟩

theorem col1_mem (E : IVec S1600000x2 32) (e : S1600000.Idx) : ∃ k, col1 E e = E k := by
  unfold col1 shapeCast extractStridedSlice
  exact ⟨_, rfl⟩

/-- The normalised indices, as the one-column index array the gather takes: `i < 0 ? i + 100000 : i`. -/
def wrapped (I : IVec S1600000 32) : IVec S1600000x1 32 :=
  broadcastInDim S1600000x1 ![0] bcast_S1600000_S1600000x1_0
    (select (cmpi .slt I (broadcastInDim S1600000 ![] bcast_S_S1600000 (constantI S_ 32 0#32)))
      (addi I (broadcastInDim S1600000 ![] bcast_S_S1600000 (constantI S_ 32 100000#32))) I)

/-- The in-bounds test `0 ≤ i ∧ i ≤ 99999` of every index, spread over the 64 columns of its row. -/
def inBounds (J : IVec S1600000x1 32) : IVec S1600000x64 1 :=
  broadcastInDim S1600000x64 ![0] bcast_S1600000_S1600000x64_0
    (Host.reduce IntOp.andi
      (andi (cmpi .sge J (broadcastInDim S1600000x1 ![] bcast_S_S1600000x1 (constantI S_ 32 0#32)))
        (cmpi .sle J (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The gathered rows `nodes[clamp J]`. -/
def rowsOf (X : FVec F S100000x64 .f32) (J : IVec S1600000x1 32) : FVec F S1600000x64 .f32 :=
  Host.gather gather_S100000x64_S1600000x1_S1600000x64_1_0_n_n_0_1_164 X J

/-- What `take` returns: the gathered rows where the index is in bounds, the fill word elsewhere. -/
def taken (X : FVec F S100000x64 .f32) (I : IVec S1600000 32) : FVec F S1600000x64 .f32 :=
  select (inBounds (wrapped I)) (rowsOf X (wrapped I))
    (broadcastInDim S1600000x64 ![] bcast_S_S1600000x64 (constant S_ .f32 0x7FC00000#32))

/-- A non-negative index is its own normalisation. -/
theorem wrapped_apply (I : IVec S1600000 32) (h : ∀ e, IntOp.cmpi .sge (I e) 0#32 = 1#1) (j : S1600000x1.Idx) :
    wrapped I j = I (ix1 (j 0)) := by
  unfold wrapped
  rw [broadcastInDim_apply _ bcast_S1600000_S1600000x1_0 _ j (ix1 (j 0)) (fun a => match a with
    | ⟨0, _⟩ => by show (j 0).val = if (1600000 : Nat) = 1 then 0 else (j 0).val; rw [if_neg (by decide)])]
  show Scalar.select (IntOp.cmpi .slt (I (ix1 (j 0))) 0#32) (IntOp.addi (I (ix1 (j 0))) 100000#32) (I (ix1 (j 0))) = _
  exact Scalar.select_wrap_of_nonneg (h _)

/-- With every index in `[0, 100000)` the in-bounds mask is all ones. -/
theorem inBounds_eq_one (I : IVec S1600000 32)
    (hI : ∀ e, IntOp.cmpi .sge (I e) 0#32 = 1#1 ∧ IntOp.cmpi .slt (I e) 100000#32 = 1#1) (i : S1600000x64.Idx) :
    inBounds (wrapped I) i = 1#1 := by
  unfold inBounds
  rw [broadcastInDim_apply _ bcast_S1600000_S1600000x64_0 _ i (ix1 (i 0)) (fun a => match a with
    | ⟨0, _⟩ => by show (i 0).val = if (1600000 : Nat) = 1 then 0 else (i 0).val; rw [if_neg (by decide)])]
  refine Host.reduce_andi_of_all _ _ _ _ rfl (fun j => ?_) _
  show IntOp.andi (IntOp.cmpi .sge (wrapped I j) 0#32) (IntOp.cmpi .sle (wrapped I j) 99999#32) = 1#1
  rw [wrapped_apply I (fun e => (hI e).1) j]
  exact IntOp.andi_eq_one.2 ⟨(hI _).1, IntOp.sle_pred_of_slt (by decide) (hI _).2⟩

/-- With every index in `[0, 100000)`, `take` is the plain gather at the normalised indices. -/
theorem taken_eq (X : FVec F S100000x64 .f32) (I : IVec S1600000 32)
    (hI : ∀ e, IntOp.cmpi .sge (I e) 0#32 = 1#1 ∧ IntOp.cmpi .slt (I e) 100000#32 = 1#1) :
    taken X I = rowsOf X (wrapped I) := by
  funext i
  unfold taken
  exact select_apply_of_one _ _ _ i (inBounds_eq_one I hI i)

end Cert.KernelIdeal.TakeValue

end
-- ==== Proof.LibTypedRef.lean ====
/-
  A typed reference's two transports are inverse to each other.

  A typed reference to a buffer carries the equation between the buffer's declared type and the value's type, and
  moves contents along it in either direction. Going there and coming back is the identity, whatever the equation:
  substitute it and both transports become the identity map.
-/
import Idealize.ShloMosaic.Lib.StableHlo

namespace Idealize.ShloMosaic.StableHlo.TRef

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, _, _⟩ := x
  subst h
  rfl

/-- Contents moved to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.Entry.lean ====
/-
  What the region finds on entry: each staged array as a function of the six arguments.

  Before the region the program cuts the edge table into its two endpoint columns, takes the endpoint rows of `nodes`
  for each, cuts the first weight matrix into its top and bottom halves, and lays the two bias vectors out as one-row
  matrices (the changes of float format are the identity on extended reals and stay in the terms as they are printed).
  Each lemma below reads one buffer back through all the host operations before the region.
-/
import proofs.«429625_j36704790511854_2_alg».proof.Proof.Gen.KernelIdeal.Frame
import proofs.«429625_j36704790511854_2_alg».proof.Proof.TakeRows
import proofs.«429625_j36704790511854_2_alg».proof.Proof.LibTypedRef
import Idealize.ShloMosaic.Lib.StableHlo.Run
import Idealize.ShloMosaic.PureOps.Ideal

set_option maxRecDepth 16384

noncomputable section

namespace Cert.KernelIdeal.Entry

open Cert.KernelIdeal Cert.KernelIdeal.Gen Cert.KernelIdeal.TakeValue
open Idealize.ShloMosaic Idealize.ShloMosaic.TcCoe Idealize.SL.Sem Idealize.ShloMosaic.StableHlo

variable (m : (ℓ : Loc nD τ sig) → Buf (Elt Ideal) ℓ)

/-- The six arguments on core `c`, at their literal types. -/
abbrev nodes (c : Dev nD) : FVec Ideal S100000x64 .f32 := m ((c : Thread nD τ).loc main_arg0)
abbrev edges (c : Dev nD) : IVec S1600000x2 32 := m ((c : Thread nD τ).loc main_arg1)
abbrev w1 (c : Dev nD) : FVec Ideal S128x128 .f32 := m ((c : Thread nD τ).loc main_arg2)
abbrev bias1 (c : Dev nD) : FVec Ideal S128 .f32 := m ((c : Thread nD τ).loc main_arg3)
abbrev w2 (c : Dev nD) : FVec Ideal S128x64 .f32 := m ((c : Thread nD τ).loc main_arg4)
abbrev bias2 (c : Dev nD) : FVec Ideal S64 .f32 := m ((c : Thread nD τ).loc main_arg5)

/-! ## The typed references of the two gathers: their transports are the identity

Each of these buffers' declared type is, by computation, the type its value is printed at, so moving contents to or
from the buffer's type changes nothing. -/

theorem at_v1 (f : main_v1.ty.Contents (Elt Ideal)) :
    (TRef.of (sig := sig) (T := ⟨S1600000, .i32⟩) main_v1).ofBuf f = f := rfl
theorem at_v3 (f : main_v3.ty.Contents (Elt Ideal)) :
    (TRef.of (sig := sig) (T := ⟨S1600000, .i32⟩) main_v3).ofBuf f = f := rfl
theorem at_arg0 (f : main_arg0.ty.Contents (Elt Ideal)) :
    (TRef.of (sig := sig) (T := ⟨S100000x64, .f32⟩) main_arg0).ofBuf f = f := rfl
theorem at_v4 (Z : (⟨S1600000x64, .f32⟩ : BufTy).Contents (Elt Ideal)) :
    ((TRef.of (sig := sig) (T := ⟨S1600000x64, .f32⟩) main_v4).toBuf Z : (⟨S1600000x64, .f32⟩ : BufTy).Contents (Elt Ideal)) = Z := rfl
theorem at_v5 (Z : (⟨S1600000x64, .f32⟩ : BufTy).Contents (Elt Ideal)) :
    ((TRef.of (sig := sig) (T := ⟨S1600000x64, .f32⟩) main_v5).toBuf Z : (⟨S1600000x64, .f32⟩ : BufTy).Contents (Elt Ideal)) = Z := rfl

set_option maxHeartbeats 2000000 in
/-- Window 0's array: the rows taken at the first endpoints. -/
theorem rows_i (c : Dev nD) :
    (V m c main_v4 : FVec Ideal S1600000x64 .f32) = taken (nodes m c) (col0 (edges m c)) := by
  unfold taken inBounds wrapped rowsOf col0
  dsimp only [V, V0]
  simp only [hostOps0, hostOps0_1, hostOps0_2, hostOps0_3, List.flatten_cons, List.flatten_nil, List.append_nil,
    List.cons_append, List.nil_append]
  after_results_simp
  simp only [TRef.ofBuf_toBuf, at_v1, at_arg0, at_v4]
  rfl

set_option maxHeartbeats 2000000 in
/-- Window 1's array: the rows taken at the second endpoints. -/
theorem rows_j (c : Dev nD) :
    (V m c main_v5 : FVec Ideal S1600000x64 .f32) = taken (nodes m c) (col1 (edges m c)) := by
  unfold taken inBounds wrapped rowsOf col1
  dsimp only [V, V0]
  simp only [hostOps0, hostOps0_1, hostOps0_2, hostOps0_3, List.flatten_cons, List.flatten_nil, List.append_nil,
    List.cons_append, List.nil_append]
  after_results_simp
  simp only [TRef.ofBuf_toBuf, at_v3, at_arg0, at_v5]
  rfl

set_option maxHeartbeats 2000000 in
/-- Window 2's array: rows 0–63 of the first weight matrix. -/
theorem top_half (c : Dev nD) :
    (V m c main_v7 : FVec Ideal S64x128 .bf16)
      = truncf .bf16 (extractStridedSlice S64x128 ![0, 0] (w1 m c) slices_S128x128_S64x128_0_0) bitsLt_bf16_f32 := by
  dsimp only [V, V0]
  simp only [hostOps0, hostOps0_1, hostOps0_2, hostOps0_3, List.flatten_cons, List.flatten_nil, List.append_nil,
    List.cons_append, List.nil_append]
  after_results_simp <;> rfl

set_option maxHeartbeats 2000000 in
/-- Window 3's array: rows 64–127 of the first weight matrix. -/
theorem bottom_half (c : Dev nD) :
    (V m c main_v9 : FVec Ideal S64x128 .bf16)
      = truncf .bf16 (extractStridedSlice S64x128 ![64, 0] (w1 m c) slices_S128x128_S64x128_64_0) bitsLt_bf16_f32 := by
  dsimp only [V, V0]
  simp only [hostOps0, hostOps0_1, hostOps0_2, hostOps0_3, List.flatten_cons, List.flatten_nil, List.append_nil,
    List.cons_append, List.nil_append]
  after_results_simp <;> rfl

set_option maxHeartbeats 2000000 in
/-- Window 4's array: the second weight matrix. -/
theorem second_layer (c : Dev nD) :
    (V m c main_v10 : FVec Ideal S128x64 .bf16) = truncf .bf16 (w2 m c) bitsLt_bf16_f32 := by
  dsimp only [V, V0]
  simp only [hostOps0, hostOps0_1, hostOps0_2, hostOps0_3, List.flatten_cons, List.flatten_nil, List.append_nil,
    List.cons_append, List.nil_append]
  after_results_simp <;> rfl

set_option maxHeartbeats 2000000 in
/-- Window 5's array: the first bias as a one-row matrix. -/
theorem bias1_row (c : Dev nD) :
    (V m c main_v11 : FVec Ideal S1x128 .f32) = shapeCast S1x128 (bias1 m c) shapeCasts_S128_S1x128 := by
  dsimp only [V, V0]
  simp only [hostOps0, hostOps0_1, hostOps0_2, hostOps0_3, List.flatten_cons, List.flatten_nil, List.append_nil,
    List.cons_append, List.nil_append]
  after_results_simp <;> rfl

set_option maxHeartbeats 2000000 in
/-- Window 6's array: the second bias as a one-row matrix. -/
theorem bias2_row (c : Dev nD) :
    (V m c main_v12 : FVec Ideal S1x64 .f32) = shapeCast S1x64 (bias2 m c) shapeCasts_S64_S1x64 := by
  dsimp only [V, V0]
  simp only [hostOps0, hostOps0_1, hostOps0_2, hostOps0_3, List.flatten_cons, List.flatten_nil, List.append_nil,
    List.cons_append, List.nil_append]
  after_results_simp <;> rfl

end Cert.KernelIdeal.Entry

end
-- ==== Proof.KerTail.lean ====
/-
  After the region: from the packed array to the result.

  The lines after the region cut the packed array at column 64 into the two message arrays, add every message into
  the row of the node it is addressed to (a scatter-add into an array of zeros: the messages of the first half go to
  the first endpoints, those of the second half to the second endpoints) and add both sums to the node array. Read
  back over any contents of the buffers they start from, these lines compute one function, `combine`, of the node
  array, the two endpoint columns and the two message arrays.
-/
import proofs.«429625_j36704790511854_2_alg».proof.Proof.Gen.KernelIdeal.Frame
import proofs.«429625_j36704790511854_2_alg».proof.Proof.Entry
import Idealize.ShloMosaic.Lib.StableHlo.Run
import Idealize.ShloMosaic.PureOps.Ideal

set_option maxRecDepth 16384

noncomputable section

namespace Cert.KernelIdeal.Tail

open Cert.KernelIdeal Cert.KernelIdeal.Gen Cert.KernelIdeal.TakeValue Cert.KernelIdeal.Entry
open Idealize.ShloMosaic Idealize.ShloMosaic.TcCoe Idealize.SL.Sem Idealize.ShloMosaic.StableHlo

/-- The node array plus, for every edge, its first message added into the row of its first endpoint and its second
    message added into the row of its second endpoint. -/
def combine (X : FVec Ideal S100000x64 .f32) (I J : IVec S1600000 32) (M1 M2 : FVec Ideal S1600000x64 .f32) :
    FVec Ideal S100000x64 .f32 :=
  addf (addf X (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 I) M1))
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 J) M2)

set_option maxHeartbeats 2000000 in
/-- The lines after the region, from any contents `U`: the result buffer ends at `combine` of the node array, the two
    endpoint columns and the two column halves of the packed array, as `U` has them. -/
theorem after_tail (U : Valuation τ sig (Elt Ideal)) :
    (StableHlo.after hostOps1 U (Proc.devRef .tc main_v23) : FVec Ideal S100000x64 .f32)
      = combine (U (Proc.devRef .tc main_arg0)) (U (Proc.devRef .tc main_v1)) (U (Proc.devRef .tc main_v3))
          (extractStridedSlice S1600000x64 ![0, 0] (U (Proc.devRef .tc main_v13) : FVec Ideal S1600000x128 .f32) slices_S1600000x128_S1600000x64_0_0)
          (extractStridedSlice S1600000x64 ![0, 64] (U (Proc.devRef .tc main_v13) : FVec Ideal S1600000x128 .f32) slices_S1600000x128_S1600000x64_0_64) := by
  unfold combine
  simp only [hostOps1]
  after_results_simp <;> rfl

variable (m : (ℓ : Loc nD τ sig) → Buf (Elt Ideal) ℓ)

set_option maxHeartbeats 2000000 in
/-- The first endpoints, as the region's entry finds them: column 0 of the edge table. -/
theorem first_endpoints (c : Dev nD) : (V m c main_v1 : IVec S1600000 32) = col0 (edges m c) := by
  unfold col0
  dsimp only [V, V0]
  simp only [hostOps0, hostOps0_1, hostOps0_2, hostOps0_3, List.flatten_cons, List.flatten_nil, List.append_nil,
    List.cons_append, List.nil_append]
  after_results_simp <;> rfl

set_option maxHeartbeats 2000000 in
/-- The second endpoints, as the region's entry finds them: column 1 of the edge table. -/
theorem second_endpoints (c : Dev nD) : (V m c main_v3 : IVec S1600000 32) = col1 (edges m c) := by
  unfold col1
  dsimp only [V, V0]
  simp only [hostOps0, hostOps0_1, hostOps0_2, hostOps0_3, List.flatten_cons, List.flatten_nil, List.append_nil,
    List.cons_append, List.nil_append]
  after_results_simp <;> rfl

end Cert.KernelIdeal.Tail

end
-- ==== Proof.WholeSpec.lean ====
/-
  The whole computation, as one function of the six arguments.

  Every edge `(i, j)` sends two messages: towards `i` the perceptron of `[nodes[i], nodes[j]]`, towards `j` the
  perceptron of `[nodes[j], nodes[i]]`. The result is the node array plus, row by row, the sum of the messages
  addressed to that row. The rows are gathered at the endpoints after the usual normalisation of a negative index.
-/
import proofs.«429625_j36704790511854_2_alg».proof.Proof.KerTail
import proofs.«429625_j36704790511854_2_alg».proof.Proof.MsgSpec

set_option maxRecDepth 16384

noncomputable section

namespace Cert.KernelIdeal.Whole

open Cert.KernelIdeal Cert.KernelIdeal.Gen Cert.KernelIdeal.TakeValue
open Idealize.ShloMosaic Idealize.ShloMosaic.TcCoe

/-- The whole computation over the six argument arrays. -/
def out (X : FVec Ideal S100000x64 .f32) (E : IVec S1600000x2 32) (W1 : FVec Ideal S128x128 .f32) (b1 : FVec Ideal S128 .f32)
    (W2 : FVec Ideal S128x64 .f32) (b2 : FVec Ideal S64 .f32) : FVec Ideal S100000x64 .f32 :=
  Tail.combine X (col0 E) (col1 E)
    (Cert.Msg.msgs (rowsOf X (wrapped (col0 E))) (rowsOf X (wrapped (col1 E))) W1 b1 W2 b2)
    (Cert.Msg.msgs (rowsOf X (wrapped (col1 E))) (rowsOf X (wrapped (col0 E))) W1 b1 W2 b2)

/-- `combine` of equal arguments. -/
theorem combine_congr {X X' : FVec Ideal S100000x64 .f32} {I I' J J' : IVec S1600000 32} {M1 M1' M2 M2' : FVec Ideal S1600000x64 .f32}
    (hX : X = X') (hI : I = I') (hJ : J = J') (h1 : M1 = M1') (h2 : M2 = M2') :
    Tail.combine X I J M1 M2 = Tail.combine X' I' J' M1' M2' := by
  subst hX hI hJ h1 h2
  rfl

end Cert.KernelIdeal.Whole

end
-- ==== Proof.KerValue.lean ====
/-
  The kernel program's result, as one function of its six arguments.

  Every edge sends two messages: towards its first endpoint the perceptron of `[nodes[i], nodes[j]]`, towards its
  second endpoint the perceptron of `[nodes[j], nodes[i]]`. The result is the node array plus, row by row, the sum of
  the messages addressed to that row. The region computes the two messages of all edges side by side (the packed
  array); the lines after it cut the packed array in two and add the messages up. With every entry of the edge table a
  node number, the rows the program takes are the plain gather of the node array at the (already in range) endpoints.
-/
import proofs.«429625_j36704790511854_2_alg».proof.Proof.Cover
import proofs.«429625_j36704790511854_2_alg».proof.Proof.KerMsg
import proofs.«429625_j36704790511854_2_alg».proof.Proof.WholeSpec

set_option maxRecDepth 16384

noncomputable section

namespace Cert.KernelIdeal.Whole

open Cert.KernelIdeal Cert.KernelIdeal.Gen Cert.KernelIdeal.TakeValue Cert.KernelIdeal.Entry
open Idealize.ShloMosaic Idealize.ShloMosaic.TcCoe Idealize.SL.Sem Idealize.ShloMosaic.StableHlo

variable (m : (ℓ : Loc nD τ sig) → Buf (Elt Ideal) ℓ)

/-- The buffers' contents when the lines after the region start: the region's arrays as the region left them, every
    other buffer as the region found it. -/
abbrev atExit (c : Dev nD) : Valuation τ sig (Elt Ideal) :=
  Pipeline.withArrays spec0 c (V0 m c) fun w => (dats m 0 c).arrAt w cfg0.N

/-- With every entry of the edge table a node number, the result buffer after the lines that follow the region holds
    `out` of the six arguments. -/
theorem result_eq (c : Dev nD)
    (hE : ∀ k, IntOp.cmpi .sge (edges m c k) 0#32 = 1#1 ∧ IntOp.cmpi .slt (edges m c k) 100000#32 = 1#1) :
    (Pipeline.afterTail₀ cfgs (dats m) 0 (V0 m) [hostOps1] c main_v23 : FVec Ideal S100000x64 .f32)
      = out (nodes m c) (edges m c) (w1 m c) (bias1 m c) (w2 m c) (bias2 m c) := by
  have hI : ∀ e, IntOp.cmpi .sge (col0 (edges m c) e) 0#32 = 1#1 ∧ IntOp.cmpi .slt (col0 (edges m c) e) 100000#32 = 1#1 := fun e => by
    obtain ⟨k, hk⟩ := col0_mem (edges m c) e
    rw [hk]
    exact hE k
  have hJ : ∀ e, IntOp.cmpi .sge (col1 (edges m c) e) 0#32 = 1#1 ∧ IntOp.cmpi .slt (col1 (edges m c) e) 100000#32 = 1#1 := fun e => by
    obtain ⟨k, hk⟩ := col1_mem (edges m c) e
    rw [hk]
    exact hE k
  have h13 : (atExit m c (Proc.devRef .tc main_v13) : FVec Ideal S1600000x128 .f32)
      = Halves.packedOf (taken (nodes m c) (col0 (edges m c))) (taken (nodes m c) (col1 (edges m c))) (w1 m c) (bias1 m c) (w2 m c) (bias2 m c) :=
    (Pipeline.withArrays_arr spec0 launch0.win.arr_inj c _ _ 7).trans
      (Packed.final m c _ _ _ _ _ _ _ (rows_i m c) (rows_j m c) (top_half m c) (bottom_half m c) (second_layer m c) (bias1_row m c) (bias2_row m c))
  have h0 : (atExit m c (Proc.devRef .tc main_arg0) : FVec Ideal S100000x64 .f32) = nodes m c :=
    (Pipeline.withArrays_of_ne _ c (V0 m c) _ main_arg0 (by exact (by decide : ∀ w, Pipeline.arrRef spec0 w ≠ main_arg0))).trans (V_main_arg0 m c)
  have h1 : (atExit m c (Proc.devRef .tc main_v1) : IVec S1600000 32) = col0 (edges m c) :=
    (Pipeline.withArrays_of_ne _ c (V0 m c) _ main_v1 (by exact (by decide : ∀ w, Pipeline.arrRef spec0 w ≠ main_v1))).trans (Tail.first_endpoints m c)
  have h3 : (atExit m c (Proc.devRef .tc main_v3) : IVec S1600000 32) = col1 (edges m c) :=
    (Pipeline.withArrays_of_ne _ c (V0 m c) _ main_v3 (by exact (by decide : ∀ w, Pipeline.arrRef spec0 w ≠ main_v3))).trans (Tail.second_endpoints m c)
  show (StableHlo.after hostOps1 (atExit m c) (Proc.devRef .tc main_v23) : FVec Ideal S100000x64 .f32) = _
  refine (Tail.after_tail (atExit m c)).trans ?_
  unfold out
  refine combine_congr h0 h1 h3 ?_ ?_
  · refine (congrArg (fun P : FVec Ideal S1600000x128 .f32 => extractStridedSlice S1600000x64 ![0, 0] P slices_S1600000x128_S1600000x64_0_0) h13).trans ?_
    rw [Halves.left_half, taken_eq _ _ hI, taken_eq _ _ hJ]
  · refine (congrArg (fun P : FVec Ideal S1600000x128 .f32 => extractStridedSlice S1600000x64 ![0, 64] P slices_S1600000x128_S1600000x64_0_64) h13).trans ?_
    rw [Halves.right_half, taken_eq _ _ hI, taken_eq _ _ hJ]

end Cert.KernelIdeal.Whole

end
-- ==== Proof.EdgeRange.lean ====
/-
  The precondition's last conjunct, read back: every entry of the edge table is a node number.

  The precondition is a conjunction of `jnp.all`s; its last conjunct is the `and`-reduction, over the whole
  1 600 000 × 2 edge table, of `(0 ≤ edges) ∧ (edges < 100 000)`, both comparisons signed. A reduction by `and` that
  is 1 met only 1s, so at every entry both comparisons hold.
-/
import proofs.«429625_j36704790511854_2_alg».proof.Pre_finite_inputs
import proofs.«429625_j36704790511854_2_alg».proof.Proof.LibAllOnes

noncomputable section

namespace Cert.EdgeRange

open Idealize.ShloMosaic Cert.Pre_finite_inputs

/-- The rank-zero shape has one index. -/
instance : Subsingleton S_.Idx := ⟨fun _ _ => funext fun d => d.elim0⟩

/-- Under the precondition every entry `edges[e, s]` satisfies `0 ≤ edges[e, s] < 100 000`, read signed. -/
theorem endpoint_in_range {F : FTy → Type} [FloatOps F] [Facts] (a0 : FVec F S100000x64 .f32) (a1 : IVec S1600000x2 32)
    (a2 : FVec F S128x128 .f32) (a3 : FVec F S128 .f32) (a4 : FVec F S128x64 .f32) (a5 : FVec F S64 .f32)
    (h : fn (F := F) a0 a1 a2 a3 a4 a5 = fun _ => 1#1) (i : S1600000x2.Idx) :
    IntOp.cmpi .sge (a1 i) 0#32 = 1#1 ∧ IntOp.cmpi .slt (a1 i) 100000#32 = 1#1 := by
  have e := congrFun h ValueIdx.ix0
  unfold fn fn_part1 at e
  dsimp only at e
  obtain ⟨-, e29⟩ := IntOp.andi_eq_one.1 e
  have e28 := Host.reduce_andi_all _ _ _ _ _ e29 i
  exact IntOp.andi_eq_one.1 e28

end Cert.EdgeRange

end
-- ==== Proof.KerRun.lean ====
/-
  The kernel program's run: it ends, and its result buffer holds the whole computation of its arguments.

  Under the precondition every entry of the edge table is a node number, so the result buffer after the lines that
  follow the region is the whole computation `out` of the six arguments; no line of the program writes an argument
  array, so the arguments end as they were launched.
-/
import proofs.«429625_j36704790511854_2_alg».proof.Defs
import proofs.«429625_j36704790511854_2_alg».proof.Proof.KerValue
import proofs.«429625_j36704790511854_2_alg».proof.Proof.EdgeRange
import proofs.«429625_j36704790511854_2_alg».proof.Proof.Gen.Pre_finite_inputs

set_option maxRecDepth 16384

noncomputable section

namespace Cert.KernelIdeal.Whole

open Cert.KernelIdeal Cert.KernelIdeal.Gen Cert.KernelIdeal.Entry
open Idealize.ShloMosaic Idealize.ShloMosaic.TcCoe Idealize.SL.Sem

variable (m : (ℓ : Loc nD τ sig) → Buf (Elt Ideal) ℓ) (ρ : Dev nD → PrngReg)

/-- Every weakly fair execution of the program from a memory satisfying the precondition ends with the result buffer
    at `out` of the arguments and the arguments unchanged. -/
theorem run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v23) = out (nodes m c) (edges m c) (w1 m c) (bias1 m c) (w2 m c) (bias2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans
        (result_eq m c (Cert.EdgeRange.endpoint_in_range _ _ _ _ _ _ (hpre c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefMsg.lean ====
/-
  The reference's two message arrays are the perceptron of the gathered endpoint rows.

  The reference joins the two gathered rows of an edge into one row of 128 numbers and contracts it against the
  whole first matrix; the specification contracts each 64-long row against its own half of that matrix. Read at
  one edge `e` and one output column `c`, the joined row has the first row in its columns 0–63 and the second in
  its columns 64–127, so the 128-long sum is the sum over the first half plus the sum over the second half, and
  everything after the first layer (bias, clamp at zero, second layer, second bias) is the same on both sides.
  The two messages differ only in the order in which the two rows are joined.
-/
import proofs.«429625_j36704790511854_2_alg».proof.Proof.Gen.ReferenceIdeal.Read
import proofs.«429625_j36704790511854_2_alg».proof.Proof.MsgSpec

noncomputable section

namespace Cert.ReferenceIdeal.RefValue

open Cert.ReferenceIdeal Cert.ReferenceIdeal.Gen Idealize.ShloMosaic Idealize.ShloMosaic.TcCoe Idealize.ShloMosaic.ValueIdx

/-! ## The joined row, read at a column of either half -/

section Joined
variable {α : Type}

/-- Column `k < 64` of the joined row `[X e, Y e]` is column `k` of `X e`. -/
theorem joined_left (X Y : S1600000x64.Idx → α) (e : Fin 1600000) (k : Fin 64) :
    concatenate S1600000x128 1 [⟨S1600000x64, X⟩, ⟨S1600000x64, Y⟩]
        concatenates_S1600000x64_S1600000x64_S1600000x128_d1 (ix2 e (Fin.castAdd 64 k)) = X (ix2 e k) :=
  concatenate_pair_apply_left 1 X Y concatenates_S1600000x64_S1600000x64_S1600000x128_d1 (ix2 e (Fin.castAdd 64 k)) rfl
    (ix2 e k) (fun b => match b with
      | ⟨0, _⟩ => rfl
      | ⟨1, _⟩ => rfl)

/-- Column `64 + k` of the joined row `[X e, Y e]` is column `k` of `Y e`. -/
theorem joined_right (X Y : S1600000x64.Idx → α) (e : Fin 1600000) (k : Fin 64) :
    concatenate S1600000x128 1 [⟨S1600000x64, X⟩, ⟨S1600000x64, Y⟩]
        concatenates_S1600000x64_S1600000x64_S1600000x128_d1 (ix2 e (Fin.natAdd 64 k)) = Y (ix2 e k) :=
  concatenate_pair_apply_right 1 X Y concatenates_S1600000x64_S1600000x64_S1600000x128_d1 (ix2 e (Fin.natAdd 64 k)) rfl rfl
    (ix2 e k) (fun b => match b with
      | ⟨0, _⟩ => fun _ => rfl
      | ⟨1, _⟩ => fun hb => absurd rfl hb)
    (by show k.val + 64 = 64 + k.val; omega)

end Joined

/-! ## The perceptron of a row given by its two halves -/

/-- The perceptron of a 128-long row `Z e` whose first 64 entries are `X e` and whose last 64 are `Y e`:
    the contraction of the row against the first matrix is the sum over its two halves, so the whole
    message is the specification's message of the pair of rows `X e`, `Y e`. -/
theorem mlp_of_halves (X Y : (⟨2, ![1600000, 64]⟩ : Shape).Idx → EReal) (Z : (⟨2, ![1600000, 128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (e : Fin 1600000) (c : Fin 64)
    (hl : ∀ k : Fin 64, Z (ix2 e (Fin.castAdd 64 k)) = X (ix2 e k))
    (hr : ∀ k : Fin 64, Z (ix2 e (Fin.natAdd 64 k)) = Y (ix2 e k)) :
    (∑ h : Fin 128, max ((∑ k : Fin 128, Z (ix2 e k) * W1 (ix2 k h)) + b1 (ix1 h)) Cert.Msg.zeroW * W2 (ix2 h c))
        + b2 (ix1 c)
      = Cert.Msg.msgs X Y W1 b1 W2 b2 (ix2 e c) := by
  unfold Cert.Msg.msgs Cert.Msg.mlpRow
  congr 1
  refine Finset.sum_congr rfl fun h _ => ?_
  rw [Cert.Msg.sum_halves (fun k => Z (ix2 e k) * W1 (ix2 k h))]
  simp only [hl, hr]

/-! ## Where each stage of the reference reads its operands, in coordinates

Edge `e`, hidden unit `h`, output column `c`, contracted position `k`. The second layer reads the hidden row
`(e, k)` against `W2 (k, c)`; the first layer reads the joined row `(e, k)` against `W1 (k, h)`; a bias
broadcast along the edges reads its vector at the column alone. -/

theorem lidx24 (e : Fin 1600000) (c : Fin 64) (h : Fin 128) : Read.lidx_main_v24 (ix2 e c) h = ix2 e h :=
  funext fun a => Fin.ext (by match a with | ⟨0, _⟩ => rfl | ⟨1, _⟩ => rfl)
theorem ridx24 (e : Fin 1600000) (c : Fin 64) (h : Fin 128) : Read.ridx_main_v24 (ix2 e c) h = ix2 h c :=
  funext fun a => Fin.ext (by match a with | ⟨0, _⟩ => rfl | ⟨1, _⟩ => rfl)
theorem lidx19 (e : Fin 1600000) (h k : Fin 128) : Read.lidx_main_v19 (ix2 e h) k = ix2 e k :=
  funext fun a => Fin.ext (by match a with | ⟨0, _⟩ => rfl | ⟨1, _⟩ => rfl)
theorem ridx19 (e : Fin 1600000) (h k : Fin 128) : Read.ridx_main_v19 (ix2 e h) k = ix2 k h :=
  funext fun a => Fin.ext (by match a with | ⟨0, _⟩ => rfl | ⟨1, _⟩ => rfl)
theorem idx2021 (e : Fin 1600000) (h : Fin 128) : Read.idx_main_v20 (Read.idx_main_v21 (ix2 e h)) = ix1 h :=
  funext fun a => Fin.ext (by match a with | ⟨0, _⟩ => rfl)
theorem idx2526 (e : Fin 1600000) (c : Fin 64) : Read.idx_main_v25 (Read.idx_main_v26 (ix2 e c)) = ix1 c :=
  funext fun a => Fin.ext (by match a with | ⟨0, _⟩ => rfl)

theorem lidx34 (e : Fin 1600000) (c : Fin 64) (h : Fin 128) : Read.lidx_main_v34 (ix2 e c) h = ix2 e h :=
  funext fun a => Fin.ext (by match a with | ⟨0, _⟩ => rfl | ⟨1, _⟩ => rfl)
theorem ridx34 (e : Fin 1600000) (c : Fin 64) (h : Fin 128) : Read.ridx_main_v34 (ix2 e c) h = ix2 h c :=
  funext fun a => Fin.ext (by match a with | ⟨0, _⟩ => rfl | ⟨1, _⟩ => rfl)
theorem lidx29 (e : Fin 1600000) (h k : Fin 128) : Read.lidx_main_v29 (ix2 e h) k = ix2 e k :=
  funext fun a => Fin.ext (by match a with | ⟨0, _⟩ => rfl | ⟨1, _⟩ => rfl)
theorem ridx29 (e : Fin 1600000) (h k : Fin 128) : Read.ridx_main_v29 (ix2 e h) k = ix2 k h :=
  funext fun a => Fin.ext (by match a with | ⟨0, _⟩ => rfl | ⟨1, _⟩ => rfl)
theorem idx3031 (e : Fin 1600000) (h : Fin 128) : Read.idx_main_v30 (Read.idx_main_v31 (ix2 e h)) = ix1 h :=
  funext fun a => Fin.ext (by match a with | ⟨0, _⟩ => rfl)
theorem idx3536 (e : Fin 1600000) (c : Fin 64) : Read.idx_main_v35 (Read.idx_main_v36 (ix2 e c)) = ix1 c :=
  funext fun a => Fin.ext (by match a with | ⟨0, _⟩ => rfl)

/-! ## The two messages -/

/-- The message towards the first endpoint: the perceptron of `[h_i, h_j]`. -/
theorem msg_to_i (x0 : (⟨S100000x64, .f32⟩ : BufTy).Contents (Elt Ideal)) (x1 : (⟨S1600000x2, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    Cert.ReferenceIdeal.Read.val_main_v27 (F := Ideal) x0 x1 x2 x3 x4 x5
      = Cert.Msg.msgs (Cert.ReferenceIdeal.Read.val_main_v10 (F := Ideal) x0 x1) (Cert.ReferenceIdeal.Read.val_main_v17 (F := Ideal) x0 x1) x2 x3 x4 x5 := by
  funext i
  obtain ⟨e, c, rfl⟩ : ∃ (e : Fin 1600000) (c : Fin 64), i = ix2 e c := ⟨i 0, i 1, eq_ix2 i⟩
  -- second layer and its bias, at the edge and column
  rw [Read.val_main_v27_apply, Read.val_main_v24_apply, Read.val_main_v26_apply, Read.val_main_v25_apply, idx2526]
  -- under the sum over hidden units: clamp, first bias, first layer
  simp only [Read.val_main_v23_apply, Read.val_main_v22_apply, Read.val_main_v19_apply, Read.val_main_v21_apply,
    Read.val_main_v20_apply, Read.val_main_call0_v0_apply, Read.val_main_call0_cst_apply,
    lidx24, ridx24, lidx19, ridx19, idx2021, Ideal.addf_def, Ideal.maximumf_def, Ideal.ofBits_def]
  -- the joined row, over the two gathered arrays as unknowns
  unfold Read.val_main_v18
  generalize Read.val_main_v10 (F := Ideal) x0 x1 = X
  generalize Read.val_main_v17 (F := Ideal) x0 x1 = Y
  exact mlp_of_halves X Y _ x2 x3 x4 x5 e c (joined_left X Y e) (joined_right X Y e)

/-- The message towards the second endpoint: the perceptron of `[h_j, h_i]`. -/
theorem msg_to_j (x0 : (⟨S100000x64, .f32⟩ : BufTy).Contents (Elt Ideal)) (x1 : (⟨S1600000x2, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    Cert.ReferenceIdeal.Read.val_main_v37 (F := Ideal) x0 x1 x2 x3 x4 x5
      = Cert.Msg.msgs (Cert.ReferenceIdeal.Read.val_main_v17 (F := Ideal) x0 x1) (Cert.ReferenceIdeal.Read.val_main_v10 (F := Ideal) x0 x1) x2 x3 x4 x5 := by
  funext i
  obtain ⟨e, c, rfl⟩ : ∃ (e : Fin 1600000) (c : Fin 64), i = ix2 e c := ⟨i 0, i 1, eq_ix2 i⟩
  rw [Read.val_main_v37_apply, Read.val_main_v34_apply, Read.val_main_v36_apply, Read.val_main_v35_apply, idx3536]
  simp only [Read.val_main_v33_apply, Read.val_main_v32_apply, Read.val_main_v29_apply, Read.val_main_v31_apply,
    Read.val_main_v30_apply, Read.val_main_call1_v0_apply, Read.val_main_call1_cst_apply,
    lidx34, ridx34, lidx29, ridx29, idx3031, Ideal.addf_def, Ideal.maximumf_def, Ideal.ofBits_def]
  unfold Read.val_main_v28
  generalize Read.val_main_v10 (F := Ideal) x0 x1 = X
  generalize Read.val_main_v17 (F := Ideal) x0 x1 = Y
  exact mlp_of_halves Y X _ x2 x3 x4 x5 e c (joined_left Y X e) (joined_right Y X e)

end Cert.ReferenceIdeal.RefValue

end
-- ==== Proof.RefWhole.lean ====
/-
  The reference program's result is the same function of the six arguments.

  The reference cuts the edge table into its two columns, normalises each endpoint (a negative index is increased by
  the number of nodes), gathers the endpoint rows, computes the two messages of every edge, adds every message into
  the row of the node it is addressed to, and adds both sums to the node array. Its two message arrays are the
  specification's (the joined 128-long row contracted against the whole first matrix is the sum over its two halves);
  everything around them is, operation for operation, what the whole computation is defined as.
-/
import proofs.«429625_j36704790511854_2_alg».proof.Proof.RefMsg
import proofs.«429625_j36704790511854_2_alg».proof.Proof.WholeSpec

set_option maxRecDepth 16384

noncomputable section

namespace Cert.ReferenceIdeal.RefWhole

open Idealize.ShloMosaic Idealize.ShloMosaic.TcCoe

/-- The reference's result term at the extended reals is `out` of its six arguments. -/
theorem result_eq (x0 : (⟨Cert.ReferenceIdeal.S100000x64, .f32⟩ : BufTy).Contents (Elt Ideal)) (x1 : (⟨Cert.ReferenceIdeal.S1600000x2, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal)) :
    Cert.ReferenceIdeal.Read.val_main_v45 (F := Ideal) x0 x1 x2 x3 x4 x5 = Cert.KernelIdeal.Whole.out x0 x1 x2 x3 x4 x5 := by
  have hI : Cert.ReferenceIdeal.Read.val_main_v1 (F := Ideal) x1 = Cert.KernelIdeal.TakeValue.col0 x1 := rfl
  have hJ : Cert.ReferenceIdeal.Read.val_main_v3 (F := Ideal) x1 = Cert.KernelIdeal.TakeValue.col1 x1 := rfl
  have hA : Cert.ReferenceIdeal.Read.val_main_v10 (F := Ideal) x0 x1
      = Cert.KernelIdeal.TakeValue.rowsOf (F := Ideal) x0 (Cert.KernelIdeal.TakeValue.wrapped (Cert.KernelIdeal.TakeValue.col0 x1)) := rfl
  have hB : Cert.ReferenceIdeal.Read.val_main_v17 (F := Ideal) x0 x1
      = Cert.KernelIdeal.TakeValue.rowsOf (F := Ideal) x0 (Cert.KernelIdeal.TakeValue.wrapped (Cert.KernelIdeal.TakeValue.col1 x1)) := rfl
  unfold Cert.ReferenceIdeal.Read.val_main_v45 Cert.ReferenceIdeal.Read.val_main_v41 Cert.ReferenceIdeal.Read.val_main_v44
    Cert.ReferenceIdeal.Read.val_main_v40 Cert.ReferenceIdeal.Read.val_main_v39 Cert.ReferenceIdeal.Read.val_main_v43
  rw [Cert.ReferenceIdeal.RefValue.msg_to_i, Cert.ReferenceIdeal.RefValue.msg_to_j, hA, hB, hI, hJ]
  rfl

end Cert.ReferenceIdeal.RefWhole

end
-- ==== Proof.lean ====
/-
  The certificate of the message-passing layer: a gather of endpoint rows, a two-layer perceptron on every edge, and a
  scatter-add of the messages, against its plain reference.

  For an edge `(i, j)` the layer sends towards `i` the perceptron of the joined row `[nodes[i], nodes[j]]` and towards `j`
  that of `[nodes[j], nodes[i]]`, and returns the node array plus, row by row, the sum of the messages addressed to that
  row. The reference contracts each joined 128-long row against the whole first matrix; the kernel contracts the two
  64-long rows against the top and the bottom half of that matrix and adds the two products. A sum over 128 positions
  is the sum over the first 64 plus the sum over the last 64 in any additive commutative monoid, so the two are equal
  on the extended reals with no appeal to finiteness; narrowing to the shorter float format is the identity there.
  The kernel computes both messages of 8000 edges per grid point and lays them side by side in one packed array, which
  the lines after the region cut in two. Both programs then add the messages up by the same scatter-add. The one
  place the two differ as printed is the gather: the kernel's replaces a row whose index is out of range by a fill word,
  the reference's does not; with every entry of the edge table a node number (the precondition's last conjunct) both are
  the plain gather at the endpoints.

  The three frames are the generated ones (the reference's is its run with the result dropped); the idealization
  rewrote nothing, so there is nothing to preserve.
-/
import proofs.«429625_j36704790511854_2_alg».proof.Defs
import proofs.«429625_j36704790511854_2_alg».proof.Proof.Gen.Kernel
import proofs.«429625_j36704790511854_2_alg».proof.Proof.Gen.Kernel.Frame
import proofs.«429625_j36704790511854_2_alg».proof.Proof.Gen.KernelIdeal
import proofs.«429625_j36704790511854_2_alg».proof.Proof.Gen.KernelIdeal.Frame
import proofs.«429625_j36704790511854_2_alg».proof.Proof.Gen.ReferenceIdeal
import proofs.«429625_j36704790511854_2_alg».proof.Proof.Gen.ReferenceIdeal.Run
import proofs.«429625_j36704790511854_2_alg».proof.Proof.Gen.ReferenceIdeal.Read
import proofs.«429625_j36704790511854_2_alg».proof.Proof.Gen.Pre_finite_inputs
import proofs.«429625_j36704790511854_2_alg».proof.Proof.KerRun
import proofs.«429625_j36704790511854_2_alg».proof.Proof.RefWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with their result buffers at the whole computation `out` of the kernel's arguments: the kernel
    by its run under the precondition, the reference by its run read back, its arguments being the kernel's. -/
theorem algebraic : Cert.algebraic_KernelIdeal_ReferenceIdeal := by
  intro m ρ m' ρ' hpre hagree
  refine ⟨_, Cert.KernelIdeal.Whole.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefWhole.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
